-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x8192x16 : Shape := ⟨3, ![128, 8192, 16]⟩
abbrev S16 : Shape := ⟨1, ![16]⟩
abbrev S16x16 : Shape := ⟨2, ![16, 16]⟩
abbrev S_ : Shape := ⟨0, ![]⟩

class Facts : Prop where
  bcast_S_S128x8192x16 : S_.BroadcastsInDim S128x8192x16 (![] : Fin 0 → Fin S128x8192x16.rank)
  reducesTo_S128x8192x16_S_d0_1_2 : S128x8192x16.ReducesTo [0, 1, 2] S_
  h_S_ : 0 < S_.numel
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_

variable [Facts]

def fn {F : FTy → Type} [FloatOps F] (main_arg0 : FVec F S128x8192x16 .f32) (main_arg1 : FVec F S16 .f32) (main_arg2 : FVec F S16x16 .f32) : IVec S_ 1 :=
  let main_v0 : FVec F S128x8192x16 .f32 := Host.absf main_arg0
  let main_cst : FVec F S_ .f32 := constant S_ .f32 0x7F800000#32
  let main_v1 : FVec F S128x8192x16 .f32 := broadcastInDim S128x8192x16 ![] bcast_S_S128x8192x16 main_cst
  let main_v2 : IVec S128x8192x16 1 := cmpf .olt main_v0 main_v1
  let main_c : IVec S_ 1 := constantI S_ 1 1#1
  let main_v3 : IVec S_ 1 := (fun x v => Host.reduce IntOp.andi x v reducesTo_S128x8192x16_S_d0_1_2 h_S_) main_v2 main_c
  let main_v4 : FVec F S16 .f32 := Host.absf main_arg1
  let main_cst_0 : FVec F S_ .f32 := constant S_ .f32 0x7F800000#32
  let main_v5 : FVec F S16 .f32 := broadcastInDim S16 ![] bcast_S_S16 main_cst_0
  let main_v6 : IVec S16 1 := cmpf .olt main_v4 main_v5
  let main_c_1 : IVec S_ 1 := constantI S_ 1 1#1
  let main_v7 : IVec S_ 1 := (fun x v => Host.reduce IntOp.andi x v reducesTo_S16_S_d0 h_S_) main_v6 main_c_1
  let main_v8 : IVec S_ 1 := andi main_v3 main_v7
  let main_v9 : FVec F S16x16 .f32 := Host.absf main_arg2
  let main_cst_2 : FVec F S_ .f32 := constant S_ .f32 0x7F800000#32
  let main_v10 : FVec F S16x16 .f32 := broadcastInDim S16x16 ![] bcast_S_S16x16 main_cst_2
  let main_v11 : IVec S16x16 1 := cmpf .olt main_v9 main_v10
  let main_c_3 : IVec S_ 1 := constantI S_ 1 1#1
  let main_v12 : IVec S_ 1 := (fun x v => Host.reduce IntOp.andi x v reducesTo_S16x16_S_d0_1 h_S_) main_v11 main_c_3
  let main_v13 : IVec S_ 1 := andi main_v8 main_v12
  main_v13
-- ==== Kernel.lean ====
abbrev S128x8192x16 : Shape := ⟨3, ![128, 8192, 16]⟩
abbrev S16 : Shape := ⟨1, ![16]⟩
abbrev S16x16 : Shape := ⟨2, ![16, 16]⟩
abbrev S131072x128 : Shape := ⟨2, ![131072, 128]⟩
abbrev S1x16 : Shape := ⟨2, ![1, 16]⟩
abbrev S8x16 : Shape := ⟨2, ![8, 16]⟩
abbrev S128 : Shape := ⟨1, ![128]⟩
abbrev S8x8 : Shape := ⟨2, ![8, 8]⟩
abbrev S_ : Shape := ⟨0, ![]⟩
abbrev S8x1x8x1 : Shape := ⟨4, ![8, 1, 8, 1]⟩
abbrev S1x16x1x16 : Shape := ⟨4, ![1, 16, 1, 16]⟩
abbrev S8x16x8x16 : Shape := ⟨4, ![8, 16, 8, 16]⟩
abbrev S128x128 : Shape := ⟨2, ![128, 128]⟩
abbrev S4096x128 : Shape := ⟨2, ![4096, 128]⟩
abbrev S1x128 : Shape := ⟨2, ![1, 128]⟩

abbrev nBuf : Space → Nat
  | .hbm => 23
  | .vmem => 6
  | .smem => 0
  | _ => 0

abbrev bufTy : (tb : Table) → Fin (tcTables nBuf tb) → BufTy
  | .hbm, ⟨0, _⟩ => ⟨S128x8192x16, .f32⟩
  | .hbm, ⟨1, _⟩ => ⟨S16, .f32⟩
  | .hbm, ⟨2, _⟩ => ⟨S16x16, .f32⟩
  | .hbm, ⟨3, _⟩ => ⟨S131072x128, .f32⟩
  | .hbm, ⟨4, _⟩ => ⟨S1x16, .f32⟩
  | .hbm, ⟨5, _⟩ => ⟨S8x16, .f32⟩
  | .hbm, ⟨6, _⟩ => ⟨S128, .f32⟩
  | .hbm, ⟨7, _⟩ => ⟨S8x8, .i32⟩
  | .hbm, ⟨8, _⟩ => ⟨S8x8, .i32⟩
  | .hbm, ⟨9, _⟩ => ⟨S_, .i32⟩
  | .hbm, ⟨10, _⟩ => ⟨S8x8, .i32⟩
  | .hbm, ⟨11, _⟩ => ⟨S8x8, .i32⟩
  | .hbm, ⟨12, _⟩ => ⟨S8x8, .i1⟩
  | .hbm, ⟨13, _⟩ => ⟨S8x8, .f32⟩
  | .hbm, ⟨14, _⟩ => ⟨S16x16, .f32⟩
  | .hbm, ⟨15, _⟩ => ⟨S8x1x8x1, .f32⟩
  | .hbm, ⟨16, _⟩ => ⟨S1x16x1x16, .f32⟩
  | .hbm, ⟨17, _⟩ => ⟨S8x16x8x16, .f32⟩
  | .hbm, ⟨18, _⟩ => ⟨S8x16x8x16, .f32⟩
  | .hbm, ⟨19, _⟩ => ⟨S8x16x8x16, .f32⟩
  | .hbm, ⟨20, _⟩ => ⟨S128x128, .f32⟩
  | .hbm, ⟨21, _⟩ => ⟨S131072x128, .f32⟩
  | .hbm, ⟨22, _⟩ => ⟨S128x8192x16, .f32⟩
  | .local _ .vmem, ⟨0, _⟩ => ⟨S4096x128, .f32⟩
  | .local _ .vmem, ⟨1, _⟩ => ⟨S4096x128, .f32⟩
  | .local _ .vmem, ⟨2, _⟩ => ⟨S128, .f32⟩
  | .local _ .vmem, ⟨3, _⟩ => ⟨S128x128, .f32⟩
  | .local _ .vmem, ⟨4, _⟩ => ⟨S4096x128, .f32⟩
  | .local _ .vmem, ⟨5, _⟩ => ⟨S4096x128, .f32⟩
  | _, _ => ⟨S128x8192x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S128x8192x16_S131072x128 : S128x8192x16.ShapeCasts S131072x128
  shapeCasts_S16_S1x16 : S16.ShapeCasts S1x16
  bcast_S1x16_S8x16_0_1 : S1x16.BroadcastsInDim S8x16 (![0, 1] : Fin 2 → Fin S8x16.rank)
  shapeCasts_S8x16_S128 : S8x16.ShapeCasts S128
  bcast_S_S8x8 : S_.BroadcastsInDim S8x8 (![] : Fin 0 → Fin S8x8.rank)
  transposes_S16x16_S16x16_1_0 : S16x16.Transposes [1, 0] S16x16
  bcast_S8x8_S8x1x8x1_0_2 : S8x8.BroadcastsInDim S8x1x8x1 (![0, 2] : Fin 2 → Fin S8x1x8x1.rank)
  bcast_S16x16_S1x16x1x16_1_3 : S16x16.BroadcastsInDim S1x16x1x16 (![1, 3] : Fin 2 → Fin S1x16x1x16.rank)
  bcast_S8x1x8x1_S8x16x8x16_0_1_2_3 : S8x1x8x1.BroadcastsInDim S8x16x8x16 (![0, 1, 2, 3] : Fin 4 → Fin S8x16x8x16.rank)
  bcast_S1x16x1x16_S8x16x8x16_0_1_2_3 : S1x16x1x16.BroadcastsInDim S8x16x8x16 (![0, 1, 2, 3] : Fin 4 → Fin S8x16x8x16.rank)
  shapeCasts_S8x16x8x16_S128x128 : S8x16x8x16.ShapeCasts S128x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S128_S128_0 : ∀ a, (![0] : Fin 1 → Nat) a + S128.size a ≤ S128.size a
  h_S128 : 0 < S128.numel
  shapeCasts_S128_S1x128 : S128.ShapeCasts S1x128
  broadcasts_S1x128_S4096x128 : S1x128.Broadcasts S4096x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S131072x128_S128x8192x16 : S131072x128.ShapeCasts S128x8192x16
  dot_S4096x128_S128x128_S4096x128_1_0_0_1_n_n_wf : DotDims.WF S4096x128 S128x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S131072x128.size a
  hwx0_0 : ∀ i : grid0.Coords, EltTy.bits .f32 = 32 ∨ (Rect.block (s := S131072x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128.size a ≤ S128.size a
  hwx0_1 : ∀ i : grid0.Coords, EltTy.bits .f32 = 32 ∨ (Rect.block (s := S128) S128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S131072x128.size a
  hwx0_3 : ∀ i : grid0.Coords, EltTy.bits .f32 = 32 ∨ (Rect.block (s := S131072x128) S4096x128.size (cc0_transform_3 i) (hinb0_3 i)).WholeWords (EltTy.packing .f32)

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

abbrev win0_0 : Pipeline.Window sig grid0 :=
  Pipeline.Window.ofSpec (Memref.whole main_v0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S4096x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S128x8192x16 : Shape := ⟨3, ![128, 8192, 16]⟩
abbrev S16 : Shape := ⟨1, ![16]⟩
abbrev S16x16 : Shape := ⟨2, ![16, 16]⟩
abbrev S1x1x16 : Shape := ⟨3, ![1, 1, 16]⟩

abbrev nBuf : Space → Nat
  | .hbm => 8
  | .vmem => 0
  | .smem => 0
  | _ => 0

abbrev bufTy : (tb : Table) → Fin (tcTables nBuf tb) → BufTy
  | .hbm, ⟨0, _⟩ => ⟨S128x8192x16, .f32⟩
  | .hbm, ⟨1, _⟩ => ⟨S16, .f32⟩
  | .hbm, ⟨2, _⟩ => ⟨S16x16, .f32⟩
  | .hbm, ⟨3, _⟩ => ⟨S1x1x16, .f32⟩
  | .hbm, ⟨4, _⟩ => ⟨S128x8192x16, .f32⟩
  | .hbm, ⟨5, _⟩ => ⟨S128x8192x16, .f32⟩
  | .hbm, ⟨6, _⟩ => ⟨S128x8192x16, .f32⟩
  | .hbm, ⟨7, _⟩ => ⟨S128x8192x16, .f32⟩
  | _, _ => ⟨S128x8192x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  bcast_S16_S1x1x16_2 : S16.BroadcastsInDim S1x1x16 (![2] : Fin 1 → Fin S1x1x16.rank)
  bcast_S1x1x16_S128x8192x16_0_1_2 : S1x1x16.BroadcastsInDim S128x8192x16 (![0, 1, 2] : Fin 3 → Fin S128x8192x16.rank)
  dot_S128x8192x16_S16x16_S128x8192x16_2_1_01_0_n_n_wf : DotDims.WF S128x8192x16 S16x16 S128x8192x16 [2] [1] [0, 1] [0] [] []

variable [Facts₀]

def dot_S128x8192x16_S16x16_S128x8192x16_2_1_01_0_n_n : DotDims S128x8192x16 S16x16 S128x8192x16 where
  lhsContracting := [2]
  rhsContracting := [1]
  lhsNonContracting := [0, 1]
  rhsNonContracting := [0]
  lhsBatch := []
  rhsBatch := []
  wf := dot_S128x8192x16_S16x16_S128x8192x16_2_1_01_0_n_n_wf

class Facts : Prop extends Facts₀ where

variable [Facts]
-- ==== Proof.Payload.lean ====
/-
  The kernel body's arithmetic, read at one entry of the output block.

  One grid point holds a block of 4096 rows by 128 lanes of the re-laid input, the 128 tiled angles and the
  128 x 128 block-diagonal weight. The body adds the angles to every row, takes the cosine entry by entry,
  and multiplies the result into the weight matrix, accumulating from zero. Over the extended reals a change of float format
  is the identity, so entry (p, q) of what is stored is the plain sum over the 128 lanes k of
  cos(x[p, k] + angle[k]) * weight[k, q].
-/
import proofs.«131823_j65481071404431_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Idealize.ShloMosaic Idealize.ShloMosaic.ValueIdx Cert.KernelIdeal Cert.KernelIdeal.Gen

/-- The left operand of the product is read at the output's row ... -/
theorem lhs_row (i : S4096x128.Idx) (q : dot_S4096x128_S128x128_S4096x128_1_0_0_1_n_n.contr.Idx) :
    (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
/-- ... and at the contracted lane. -/
theorem lhs_lane (i : S4096x128.Idx) (q : dot_S4096x128_S128x128_S4096x128_1_0_0_1_n_n.contr.Idx) :
    (dot_S4096x128_S128x128_S4096x128_1_0_0_1_n_n.lhsIdx i q 1).val = (q ⟨0, by decide⟩).val :=
  dot_S4096x128_S128x128_S4096x128_1_0_0_1_n_n.lhsIdx_val_of_single rfl i q
/-- The right operand is read at the contracted lane ... -/
theorem rhs_lane (i : S4096x128.Idx) (q : dot_S4096x128_S128x128_S4096x128_1_0_0_1_n_n.contr.Idx) :
    (dot_S4096x128_S128x128_S4096x128_1_0_0_1_n_n.rhsIdx i q 0).val = (q ⟨0, by decide⟩).val :=
  dot_S4096x128_S128x128_S4096x128_1_0_0_1_n_n.rhsIdx_val_of_single rfl i q
/-- ... and at the output's column. -/
theorem rhs_col (i : S4096x128.Idx) (q : dot_S4096x128_S128x128_S4096x128_1_0_0_1_n_n.contr.Idx) :
    (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

/-- Entry (p, q) of the block the body stores: the sum over the lanes k of cos(x[p, k] + angle[k]) * weight[k, q]. -/
theorem pay_apply (x0 : Vec Ideal S4096x128 .f32) (x1 : Vec Ideal S128 .f32) (x2 : Vec Ideal S128x128 .f32)
    (p : Fin 4096) (q : Fin 128) :
    k0_pay1 (F := Ideal) x0 x1 x2 (ix2 p q)
      = ∑ k : Fin 128, Ideal.cos (x0 (ix2 p k) + x1 (ix1 k)) * x2 (ix2 k q) := by
  unfold k0_pay1
  refine (Ideal.matmul_constant_zero_apply dot_S4096x128_S128x128_S4096x128_1_0_0_1_n_n none _ _ (ix2 p q)).trans ?_
  rw [← Equiv.sum_comp (contrEquiv1 dot_S4096x128_S128x128_S4096x128_1_0_0_1_n_n 128 rfl rfl).symm]
  refine Finset.sum_congr rfl fun k _ => ?_
  have hk := contrEquiv1_symm_val dot_S4096x128_S128x128_S4096x128_1_0_0_1_n_n 128 rfl rfl k
  have el : dot_S4096x128_S128x128_S4096x128_1_0_0_1_n_n.lhsIdx (ix2 p q) ((contrEquiv1 dot_S4096x128_S128x128_S4096x128_1_0_0_1_n_n 128 rfl rfl).symm k) = ix2 p k :=
    funext fun a => Fin.ext (by
      match a with
      | ⟨0, _⟩ => exact lhs_row _ _
      | ⟨1, _⟩ => exact (lhs_lane _ _).trans hk)
  have er : dot_S4096x128_S128x128_S4096x128_1_0_0_1_n_n.rhsIdx (ix2 p q) ((contrEquiv1 dot_S4096x128_S128x128_S4096x128_1_0_0_1_n_n 128 rfl rfl).symm k) = ix2 k q :=
    funext fun a => Fin.ext (by
      match a with
      | ⟨0, _⟩ => exact (rhs_lane _ _).trans hk
      | ⟨1, _⟩ => exact rhs_col _ _)
  rw [el, er]
  show Ideal.cos (shapeCast S4096x128 x0 shapeCasts_S4096x128_S4096x128 (ix2 p k)
        + broadcastTo S4096x128 (shapeCast S1x128 x1 shapeCasts_S128_S1x128) broadcasts_S1x128_S4096x128 (ix2 p k))
      * shapeCast S128x128 x2 shapeCasts_S128x128_S128x128 (ix2 k q) = _
  rw [shapeCast_self, shapeCast_self, broadcastTo_1b_ab_apply, shapeCast_a_1a_apply]

end Cert.KernelIdeal.Body

end
-- ==== Proof.Region.lean ====
/-
  From the blocks the grid points write back to the whole array the region leaves.

  The 32 grid points cut the 131072 rows into consecutive blocks of 4096 rows; point t reads rows
  4096 t .. 4096 t + 4095 of the re-laid input, the whole vector of angles and the whole weight, and writes
  back the same rows of the output. Every entry of the output array therefore lies in exactly the block of
  point (row / 4096), and what that point writes there is the one whole-array function below, restricted
  to the block.
-/
import proofs.«131823_j65481071404431_1_alg».proof.Proof.Gen.KernelIdeal.Frame
import proofs.«131823_j65481071404431_1_alg».proof.Proof.Payload
import Idealize.ShloMosaic.Lib.Pipeline.Value
import Idealize.ShloMosaic.Lib.ValueIdx

set_option maxRecDepth 16384

noncomputable section

namespace Cert.KernelIdeal.Region

open Idealize.ShloMosaic Idealize.ShloMosaic.TcCoe Idealize.SL.Sem
open Idealize.ShloMosaic.ValueIdx Cert.KernelIdeal Cert.KernelIdeal.Gen
open Idealize.ShloMosaic.Pipeline (Dat Cfg Window)

variable (m : (ℓ : Loc nD τ sig) → Buf (Elt Ideal) ℓ)

/-- The three arrays the region reads on core c, at their literal types. -/
abbrev relaid (c : Dev nD) : S131072x128.Idx → EReal := V m c main_v0
abbrev tiled (c : Dev nD) : S128.Idx → EReal := V m c main_v3
abbrev blockdiag (c : Dev nD) : S128x128.Idx → EReal := V m c main_v11

theorem zeros2 : (![0, 0] : Fin 2 → Nat) = fun _ => 0 := funext fun a => by fin_cases a <;> rfl
theorem zeros1 : (![0] : Fin 1 → Nat) = fun _ => 0 := funext fun a => by fin_cases a <;> rfl

/-- The output array as one function of the three arrays the region reads: entry (r, q) is the sum over the lanes k
    of cos(a0[r, k] + a1[k]) * a2[k, q]. -/
def rowsTimesWeight (a0 : S131072x128.Idx → EReal) (a1 : S128.Idx → EReal) (a2 : S128x128.Idx → EReal) :
    S131072x128.Idx → EReal :=
  fun i => ∑ k : Fin 128, Ideal.cos (a0 (ix2 (i 0) k) + a1 (ix1 k)) * a2 (ix2 k (i 1))

/-- The block indices over the grid: the input rows move with the output rows, everything else stays at block 0. -/
theorem block_indices : ∀ t : Fin cfg0.N, win0_0.index t (0 : Fin 2) = win0_3.index t (0 : Fin 2)
    ∧ win0_0.index t (1 : Fin 2) = 0
    ∧ win0_1.index t (0 : Fin 1) = 0
    ∧ win0_2.index t (0 : Fin 2) = 0
    ∧ win0_2.index t (1 : Fin 2) = 0
    ∧ win0_3.index t (1 : Fin 2) = 0
    ∧ win0_3.index t (0 : Fin 2) ≤ 31 :=
  (by decide +kernel : ∀ t : Fin grid0.N, _)

/-- Every one of the 32 row blocks is some point's. -/
theorem block_onto : ∀ q0 : Fin 32, ∃ t : Fin cfg0.N, win0_3.index t = ![q0.val, 0] :=
  (by decide +kernel : ∀ q0 : Fin 32, ∃ t : Fin grid0.N, win0_3.index t = ![q0.val, 0])

/-- What point t writes back is block t of the whole-array function. -/
theorem written_eq (c : Dev nD) (t : Fin cfg0.N) :
    (dats m 0 c).flushed 3 t
      = ((cfg0.win 3).blk t).view.read (Elt Ideal) (rowsTimesWeight (relaid m c) (tiled m c) (blockdiag m c)) := by
  show (cfg0.win 3).cut (grid0.coords t) ((dats m 0 c).after 3 t) = _
  rw [after0_3]
  unfold out0_3
  rw [View.canon_unit_zero zeros2]
  simp only [View.ld_unit_zero (S := S4096x128) zeros2, View.ld_unit_zero (S := S128) zeros1, View.ld_unit_zero (S := S128x128) zeros2]
  obtain ⟨e0, e1, e2, e3, e4, e5, e6⟩ := block_indices t
  funext j
  obtain ⟨p, q, rfl⟩ : ∃ (p : Fin 4096) (q : Fin 128), j = ix2 p q := ⟨j 0, j 1, eq_ix2 j⟩
  refine (Body.pay_apply (iblk m c 0 t) (iblk m c 1 t) (iblk m c 2 t) p q).trans ?_
  show _ = ∑ k : Fin 128, Ideal.cos (relaid m c (ix2 ((((cfg0.win 3).blk t).view.emb (ix2 p q)) 0) k) + tiled m c (ix1 k))
      * blockdiag m c (ix2 k ((((cfg0.win 3).blk t).view.emb (ix2 p q)) 1))
  refine Finset.sum_congr rfl fun k _ => ?_
  have h0 : iblk m c 0 t (ix2 p k) = relaid m c (ix2 ((((cfg0.win 3).blk t).view.emb (ix2 p q)) 0) k) := by
    show V m c main_v0 (((cfg0.win 0).blk t).view.emb (ix2 p k)) = _
    refine congrArg (V m c main_v0) (funext fun a => Fin.ext ?_)
    match a with
    | ⟨0, _⟩ => show win0_0.index t (0 : Fin 2) * 4096 + 1 * p.val = win0_3.index t (0 : Fin 2) * 4096 + 1 * p.val; omega
    | ⟨1, _⟩ => show win0_0.index t (1 : Fin 2) * 128 + 1 * k.val = k.val; omega
  have h1 : iblk m c 1 t (ix1 k) = tiled m c (ix1 k) := by
    show V m c main_v3 (((cfg0.win 1).blk t).view.emb (ix1 k)) = _
    refine congrArg (V m c main_v3) (funext fun a => Fin.ext ?_)
    match a with
    | ⟨0, _⟩ => show win0_1.index t (0 : Fin 1) * 128 + 1 * k.val = k.val; omega
  have h2 : iblk m c 2 t (ix2 k q) = blockdiag m c (ix2 k ((((cfg0.win 3).blk t).view.emb (ix2 p q)) 1)) := by
    show V m c main_v11 (((cfg0.win 2).blk t).view.emb (ix2 k q)) = _
    refine congrArg (V m c main_v11) (funext fun a => Fin.ext ?_)
    match a with
    | ⟨0, _⟩ => show win0_2.index t (0 : Fin 2) * 128 + 1 * k.val = k.val; omega
    | ⟨1, _⟩ => show win0_2.index t (1 : Fin 2) * 128 + 1 * q.val = win0_3.index t (1 : Fin 2) * 128 + 1 * q.val; omega
  rw [h0, h1, h2]

/-- An entry of the output array lies in point t's block iff each coordinate is in the block's range. -/
theorem mem_block (t : Fin cfg0.N) (i : S131072x128.Idx) :
    i ∈ ((cfg0.win 3).blk t).view.set ↔ ∀ a : Fin 2, win0_3.index t a * S4096x128.size a ≤ (i a).val ∧ (i a).val < win0_3.index t a * S4096x128.size a + S4096x128.size a := by
  show i ∈ ((View.whole main_v12).slice (win0_3.rect t)).set ↔ _
  rw [View.set_slice_whole, Rect.mem_set_unit]
  exact Iff.rfl

/-- Every entry is written: row r by the point of block r / 4096. -/
theorem covered (i : S131072x128.Idx) :
    ∃ t : Fin cfg0.N, (cfg0.win 3).flush t = true ∧ i ∈ ((cfg0.win 3).blk t).view.set := by
  have hi0 : (i 0).val < 131072 := (i 0).isLt
  have hi1 : (i 1).val < 128 := (i 1).isLt
  obtain ⟨t, ht⟩ := block_onto ⟨(i 0).val / 4096, by omega⟩
  have q0 : win0_3.index t (0 : Fin 2) = (i 0).val / 4096 := congrFun ht 0
  have q1 : win0_3.index t (1 : Fin 2) = 0 := congrFun ht 1
  refine ⟨t, flush0_3 t, ?_⟩
  rw [mem_block]
  intro a
  match a with
  | ⟨0, _⟩ => show win0_3.index t (0 : Fin 2) * 4096 ≤ (i 0).val ∧ (i 0).val < win0_3.index t (0 : Fin 2) * 4096 + 4096; omega
  | ⟨1, _⟩ => show win0_3.index t (1 : Fin 2) * 128 ≤ (i 1).val ∧ (i 1).val < win0_3.index t (1 : Fin 2) * 128 + 128; omega

/-- The output array after the region. -/
theorem output_eq (c : Dev nD) :
    (dats m 0 c).arrAt 3 cfg0.N = rowsTimesWeight (relaid m c) (tiled m c) (blockdiag m c) :=
  (dats m 0 c).arrAt_eq_of_cover 3 _ (fun t _ => written_eq m c t) covered

end Cert.KernelIdeal.Region

end
-- ==== Proof.Entry.lean ====
/-
  The three arrays the kernel region is entered with, each read at an index as an entry of an argument array.

  Before the region the input x[128, 8192, 16] is re-laid as 131072 rows of 128 lanes: row r holds the 8
  consecutive tokens 8 * (r % 1024) .. 8 * (r % 1024) + 7 of batch r / 1024, lane k being token slot k / 16,
  wire k % 16. The 16 angles are tiled 8 times along the lanes: lane k carries angle k % 16. The 128 x 128
  weight is the Kronecker product of the 8 x 8 identity with the transposed 16 x 16 weight: entry (k, c) is
  (1 if k / 16 = c / 16, else 0) * weight[c % 16, k % 16]; the identity is an integer comparison of two
  counters turned into 1.0 or 0.0.
-/
import proofs.«131823_j65481071404431_1_alg».proof.Proof.Gen.KernelIdeal.Frame
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.Entry

open Idealize.ShloMosaic Idealize.ShloMosaic.TcCoe Idealize.SL.Sem Idealize.ShloMosaic.StableHlo
open Idealize.ShloMosaic.ValueIdx Cert.KernelIdeal Cert.KernelIdeal.Gen

variable (m : (ℓ : Loc nD τ sig) → Buf (Elt Ideal) ℓ)

/-- The three argument arrays on core c, at their literal types. -/
abbrev argX (c : Dev nD) : S128x8192x16.Idx → EReal := m ((c : Thread nD τ).loc main_arg0)
abbrev argTheta (c : Dev nD) : S16.Idx → EReal := m ((c : Thread nD τ).loc main_arg1)
abbrev argW (c : Dev nD) : S16x16.Idx → EReal := m ((c : Thread nD τ).loc main_arg2)

/-! ## The re-laid input -/

theorem relaid_eq (c : Dev nD) :
    (V m c main_v0 : S131072x128.Idx → EReal) = shapeCast S131072x128 (argX m c) shapeCasts_S128x8192x16_S131072x128 := by
  dsimp only [V, V0]
  simp only [hostOps0, hostOps0_1, List.flatten_cons, List.flatten_nil, List.append_nil, List.cons_append, List.nil_append]
  after_results
  rfl

/-- Row r, lane k of the re-laid input is x[r / 1024, 8 * (r % 1024) + k / 16, k % 16]. -/
theorem relaid_apply (c : Dev nD) (r : Fin 131072) (k : Fin 128) :
    (V m c main_v0 : S131072x128.Idx → EReal) (ix2 r k)
      = argX m c (ix3 (⟨r.val / 1024, by have := r.isLt; omega⟩ : Fin 128)
          (⟨(r.val % 1024) * 8 + k.val / 16, by have := k.isLt; omega⟩ : Fin 8192) (⟨k.val % 16, by omega⟩ : Fin 16)) := by
  rw [relaid_eq]
  refine shapeCast_apply _ _ _ _ ?_
  rw [Shape.rowMajor_val_three, Shape.rowMajor_val_two]
  show (r.val / 1024 * 8192 + ((r.val % 1024) * 8 + k.val / 16)) * 16 + k.val % 16 = r.val * 128 + k.val
  omega

/-! ## The tiled angles -/

theorem tiled_eq (c : Dev nD) :
    (V m c main_v3 : S128.Idx → EReal)
      = shapeCast S128 (broadcastInDim S8x16 ![0, 1] bcast_S1x16_S8x16_0_1 (shapeCast S1x16 (argTheta m c) shapeCasts_S16_S1x16)) shapeCasts_S8x16_S128 := by
  dsimp only [V, V0]
  simp only [hostOps0, hostOps0_1, List.flatten_cons, List.flatten_nil, List.append_nil, List.cons_append, List.nil_append]
  after_results
  rfl

/-- Lane k carries angle k % 16. -/
theorem tiled_apply (c : Dev nD) (k : Fin 128) :
    (V m c main_v3 : S128.Idx → EReal) (ix1 k) = argTheta m c (ix1 (⟨k.val % 16, by omega⟩ : Fin 16)) := by
  rw [tiled_eq]
  refine (shapeCast_apply _ _ (ix1 k) (ix2 (⟨k.val / 16, by have := k.isLt; omega⟩ : Fin 8) (⟨k.val % 16, by omega⟩ : Fin 16)) ?_).trans ?_
  · rw [Shape.rowMajor_val_two, Shape.rowMajor_val_one]
    show k.val / 16 * 16 + k.val % 16 = k.val
    omega
  refine (broadcastInDim_apply _ bcast_S1x16_S8x16_0_1 _ _ (ix2 (0 : Fin 1) (⟨k.val % 16, by omega⟩ : Fin 16)) (fun a => match a with
    | ⟨0, _⟩ => by show 0 = if (1 : Nat) = 1 then 0 else k.val / 16; rw [if_pos rfl]
    | ⟨1, _⟩ => by show k.val % 16 = if (16 : Nat) = 1 then 0 else k.val % 16; rw [if_neg (by decide)])).trans ?_
  exact shapeCast_a_1a_apply _ _ _ _

/-! ## The block-diagonal weight -/

/-- The 8 x 8 identity as floats: two counters compared, the bit read as a number. -/
abbrev eye8 : S8x8.Idx → EReal :=
  uitofp (F := Ideal) .f32 (cmpi .eq (addi (iotaInDim S8x8 32 0) (broadcastInDim S8x8 ![] bcast_S_S8x8 (constantI S_ 32 0#32))) (iotaInDim S8x8 32 1))

theorem eye8_bit : ∀ g g' : Fin 8,
    (BitVec.ofBool (BitVec.ofNat 32 g.val + 0#32 == BitVec.ofNat 32 g'.val)).toNat = if g.val = g'.val then 1 else 0 := by
  decide

theorem eye8_apply (g g' : Fin 8) : eye8 (ix2 g g') = if g.val = g'.val then (1 : EReal) else 0 := by
  show (((BitVec.ofBool (BitVec.ofNat 32 g.val + 0#32 == BitVec.ofNat 32 g'.val)).toNat : ℝ) : EReal) = _
  rw [eye8_bit]
  split
  · rw [Nat.cast_one, EReal.coe_one]
  · rw [Nat.cast_zero, EReal.coe_zero]

theorem blockdiag_eq (c : Dev nD) :
    (V m c main_v11 : S128x128.Idx → EReal)
      = shapeCast S128x128 (mulf (F := Ideal) (φ := .f32)
          (broadcastInDim S8x16x8x16 ![0, 1, 2, 3] bcast_S8x1x8x1_S8x16x8x16_0_1_2_3
            (broadcastInDim S8x1x8x1 ![0, 2] bcast_S8x8_S8x1x8x1_0_2 eye8))
          (broadcastInDim S8x16x8x16 ![0, 1, 2, 3] bcast_S1x16x1x16_S8x16x8x16_0_1_2_3
            (broadcastInDim S1x16x1x16 ![1, 3] bcast_S16x16_S1x16x1x16_1_3
              (transpose S16x16 [1, 0] (argW m c) transposes_S16x16_S16x16_1_0))))
          shapeCasts_S8x16x8x16_S128x128 := by
  dsimp only [V, V0]
  simp only [hostOps0, hostOps0_1, List.flatten_cons, List.flatten_nil, List.append_nil, List.cons_append, List.nil_append]
  after_results
  rfl

/-- Entry (k, c) of the block-diagonal weight is (1 if k / 16 = c / 16, else 0) * weight[c % 16, k % 16]. -/
theorem blockdiag_apply (c : Dev nD) (k q : Fin 128) :
    (V m c main_v11 : S128x128.Idx → EReal) (ix2 k q)
      = (if k.val / 16 = q.val / 16 then (1 : EReal) else 0)
          * argW m c (ix2 (⟨q.val % 16, by omega⟩ : Fin 16) (⟨k.val % 16, by omega⟩ : Fin 16)) := by
  have hk := k.isLt
  have hq := q.isLt
  rw [blockdiag_eq]
  refine (shapeCast_apply _ _ (ix2 k q) (ix4 (⟨k.val / 16, by omega⟩ : Fin 8) (⟨k.val % 16, by omega⟩ : Fin 16)
    (⟨q.val / 16, by omega⟩ : Fin 8) (⟨q.val % 16, by omega⟩ : Fin 16)) ?_).trans ?_
  · rw [Shape.rowMajor_val_four, Shape.rowMajor_val_two]
    show ((k.val / 16 * 16 + k.val % 16) * 8 + q.val / 16) * 16 + q.val % 16 = k.val * 128 + q.val
    omega
  rw [mulf_apply]
  congr 1
  · refine (broadcastInDim_apply _ bcast_S8x1x8x1_S8x16x8x16_0_1_2_3 _ _
      (ix4 (⟨k.val / 16, by omega⟩ : Fin 8) (0 : Fin 1) (⟨q.val / 16, by omega⟩ : Fin 8) (0 : Fin 1)) (fun a => match a with
      | ⟨0, _⟩ => by show k.val / 16 = if (8 : Nat) = 1 then 0 else k.val / 16; rw [if_neg (by decide)]
      | ⟨1, _⟩ => by show 0 = if (1 : Nat) = 1 then 0 else k.val % 16; rw [if_pos rfl]
      | ⟨2, _⟩ => by show q.val / 16 = if (8 : Nat) = 1 then 0 else q.val / 16; rw [if_neg (by decide)]
      | ⟨3, _⟩ => by show 0 = if (1 : Nat) = 1 then 0 else q.val % 16; rw [if_pos rfl])).trans ?_
    refine (broadcastInDim_apply _ bcast_S8x8_S8x1x8x1_0_2 _ _
      (ix2 (⟨k.val / 16, by omega⟩ : Fin 8) (⟨q.val / 16, by omega⟩ : Fin 8)) (fun a => match a with
      | ⟨0, _⟩ => by show k.val / 16 = if (8 : Nat) = 1 then 0 else k.val / 16; rw [if_neg (by decide)]
      | ⟨1, _⟩ => by show q.val / 16 = if (8 : Nat) = 1 then 0 else q.val / 16; rw [if_neg (by decide)])).trans ?_
    exact eye8_apply _ _
  · refine (broadcastInDim_apply _ bcast_S1x16x1x16_S8x16x8x16_0_1_2_3 _ _
      (ix4 (0 : Fin 1) (⟨k.val % 16, by omega⟩ : Fin 16) (0 : Fin 1) (⟨q.val % 16, by omega⟩ : Fin 16)) (fun a => match a with
      | ⟨0, _⟩ => by show 0 = if (1 : Nat) = 1 then 0 else k.val / 16; rw [if_pos rfl]
      | ⟨1, _⟩ => by show k.val % 16 = if (16 : Nat) = 1 then 0 else k.val % 16; rw [if_neg (by decide)]
      | ⟨2, _⟩ => by show 0 = if (1 : Nat) = 1 then 0 else q.val / 16; rw [if_pos rfl]
      | ⟨3, _⟩ => by show q.val % 16 = if (16 : Nat) = 1 then 0 else q.val % 16; rw [if_neg (by decide)])).trans ?_
    refine (broadcastInDim_apply _ bcast_S16x16_S1x16x1x16_1_3 _ _
      (ix2 (⟨k.val % 16, by omega⟩ : Fin 16) (⟨q.val % 16, by omega⟩ : Fin 16)) (fun a => match a with
      | ⟨0, _⟩ => by show k.val % 16 = if (16 : Nat) = 1 then 0 else k.val % 16; rw [if_neg (by decide)]
      | ⟨1, _⟩ => by show q.val % 16 = if (16 : Nat) = 1 then 0 else q.val % 16; rw [if_neg (by decide)])).trans ?_
    exact transpose_apply _ _ transposes_S16x16_S16x16_1_0 _ (ix2 (⟨q.val % 16, by omega⟩ : Fin 16) (⟨k.val % 16, by omega⟩ : Fin 16))
      (fun b => match b with
        | ⟨0, _⟩ => rfl
        | ⟨1, _⟩ => rfl)

end Cert.KernelIdeal.Entry

end
-- ==== Proof.Spec.lean ====
/-
  What both programs compute, and the one law of sums that joins them.

  For a token (b, s) and an output wire o the result is
      y[b, s, o] = sum over the 16 input wires e of cos(x[b, s, e] + angle[e]) * weight[o, e].
  The kernel obtains it from a product over 128 lanes, a lane being a pair (g, e) of one of 8 tokens folded into a row
  and a wire, against a block-diagonal matrix whose entry is (1 if g is the token's own slot, else 0) * weight[o, e].
  Splitting the 128 lanes into 8 x 16, every slot other than the token's own contributes zero and the own slot
  contributes the 16 terms of the plain sum. Zero times anything is zero on the extended reals, so the law asks
  nothing of the entries.
-/
import Idealize.ShloMosaic.Lib.ValueIdx
import Idealize.ShloMosaic.PureOps.Ideal

noncomputable section

namespace Cert.Spec

open Idealize.ShloMosaic Idealize.ShloMosaic.ValueIdx

/-- The result array as one function of the three argument arrays. -/
def G (x : (⟨3, ![128, 8192, 16]⟩ : Shape).Idx → EReal) (θ : (⟨1, ![16]⟩ : Shape).Idx → EReal)
    (w : (⟨2, ![16, 16]⟩ : Shape).Idx → EReal) : (⟨3, ![128, 8192, 16]⟩ : Shape).Idx → EReal :=
  fun i => ∑ e : Fin 16, Ideal.cos (x (ix3 (i 0) (i 1) e) + θ (ix1 e)) * w (ix2 (i 2) e)

/-- A sum over 128 lanes is the double sum over 8 slots of 16 wires, lane k being slot k / 16, wire k % 16. -/
theorem sum_lanes (F : Fin 8 → Fin 16 → EReal) :
    ∑ k : Fin 128, F ⟨k.val / 16, by have := k.isLt; omega⟩ ⟨k.val % 16, by omega⟩ = ∑ g : Fin 8, ∑ e : Fin 16, F g e := by
  rw [← Fintype.sum_prod_type', ← Equiv.sum_comp (finProdFinEquiv (m := 8) (n := 16))]
  refine Finset.sum_congr rfl fun p _ => ?_
  obtain ⟨g, e⟩ := p
  have hg := g.isLt
  have he := e.isLt
  have h1 : (e.val + 16 * g.val) / 16 = g.val := by omega
  have h2 : (e.val + 16 * g.val) % 16 = e.val := by omega
  show F ⟨(e.val + 16 * g.val) / 16, _⟩ ⟨(e.val + 16 * g.val) % 16, _⟩ = F g e
  congr 1
  · exact Fin.ext h1
  · exact Fin.ext h2

/-- Against a block-diagonal factor only the own slot g0 survives. -/
theorem sum_own_slot (z : Fin 8 → Fin 16 → EReal) (u : Fin 16 → EReal) (g0 : Fin 8) :
    ∑ g : Fin 8, ∑ e : Fin 16, z g e * ((if g.val = g0.val then (1 : EReal) else 0) * u e) = ∑ e : Fin 16, z g0 e * u e := by
  rw [Finset.sum_eq_single g0]
  · refine Finset.sum_congr rfl fun e _ => ?_
    rw [if_pos rfl, one_mul]
  · intro g _ hg
    refine Finset.sum_eq_zero fun e _ => ?_
    rw [if_neg (fun h => hg (Fin.ext h)), zero_mul, mul_zero]
  · intro h
    exact absurd (Finset.mem_univ g0) h

end Cert.Spec

end
-- ==== Proof.Whole.lean ====
/-
  The kernel program's result array as the specification of its arguments, and its run.

  After the region the 131072 x 128 output is re-laid as [128, 8192, 16]: entry (b, s, o) is row
  (8192 b + s) / 8, lane 16 (s % 8) + o. In that row, lane k of the re-laid input is token slot k / 16, wire k % 16,
  so the 128 lanes split into 8 slots of 16 wires; the block-diagonal weight kills every slot but s % 8, and in that
  slot the re-laid input is x[b, s, .], the tiled angle is angle[.] and the weight entry is weight[o, .].
-/
import proofs.«131823_j65481071404431_1_alg».proof.Proof.Region
import proofs.«131823_j65481071404431_1_alg».proof.Proof.Entry
import proofs.«131823_j65481071404431_1_alg».proof.Proof.Spec
import Idealize.ShloMosaic.Lib.StableHlo.Run

set_option maxRecDepth 16384

noncomputable section

namespace Cert.KernelIdeal.Whole

open Idealize.ShloMosaic Idealize.ShloMosaic.TcCoe Idealize.SL.Sem Idealize.ShloMosaic.StableHlo
open Idealize.ShloMosaic.ValueIdx Cert.KernelIdeal Cert.KernelIdeal.Gen
open Cert.KernelIdeal.Entry Cert.KernelIdeal.Region

variable (m : (ℓ : Loc nD τ sig) → Buf (Elt Ideal) ℓ) (ρ : Dev nD → PrngReg)

/-- The result buffer after the host line that follows the region: the region's output array, re-laid. -/
theorem result_eq (c : Dev nD) :
    (Pipeline.afterTail₀ cfgs (dats m) 0 (V0 m) [hostOps1] c main_v13 : S128x8192x16.Idx → EReal)
      = shapeCast S128x8192x16 (rowsTimesWeight (relaid m c) (tiled m c) (blockdiag m c)) shapeCasts_S131072x128_S128x8192x16 := by
  have hw : Pipeline.withArrays (cfgs 0).spec c (V0 m c) (fun w => (dats m 0 c).arrAt w (cfgs 0).N) (Proc.devRef .tc main_v12)
      = rowsTimesWeight (relaid m c) (tiled m c) (blockdiag m c) :=
    (Pipeline.withArrays_arr spec0 launch0.win.arr_inj c _ _ 3).trans (output_eq m c)
  unfold Pipeline.afterTail₀
  show StableHlo.after hostOps1 _ (Proc.devRef .tc main_v13) = _
  after_results
  rw [hw]
  rfl

/-- The cosine term of token slot g, wire e in row r of the re-laid input: row r holds the tokens
    8 * (r % 1024) + g of batch r / 1024. -/
def slotTerm (c : Dev nD) (r : Fin 131072) (g : Fin 8) (e : Fin 16) : EReal :=
  Ideal.cos (argX m c (ix3 (⟨r.val / 1024, by have := r.isLt; omega⟩ : Fin 128)
      (⟨(r.val % 1024) * 8 + g.val, by have := g.isLt; omega⟩ : Fin 8192) e) + argTheta m c (ix1 e))

/-- The weight entry that meets wire e in column q of the block-diagonal weight. -/
def colWeight (c : Dev nD) (q : Fin 128) (e : Fin 16) : EReal :=
  argW m c (ix2 (⟨q.val % 16, by omega⟩ : Fin 16) e)

/-- Lane k's summand in row r, column q: slot k / 16, wire k % 16. -/
theorem lane_eq (c : Dev nD) (r : Fin 131072) (q k : Fin 128) :
    Ideal.cos (relaid m c (ix2 r k) + tiled m c (ix1 k)) * blockdiag m c (ix2 k q)
      = slotTerm m c r ⟨k.val / 16, by have := k.isLt; omega⟩ ⟨k.val % 16, by omega⟩
          * ((if k.val / 16 = q.val / 16 then (1 : EReal) else 0) * colWeight m c q ⟨k.val % 16, by omega⟩) := by
  rw [show relaid m c (ix2 r k) = _ from relaid_apply m c r k, show tiled m c (ix1 k) = _ from tiled_apply m c k,
    show blockdiag m c (ix2 k q) = _ from blockdiag_apply m c k q]
  rfl

/-- Entry (b, s, o) of the re-laid output is the sum over the 16 wires of cos(x[b, s, e] + angle[e]) * weight[o, e]. -/
theorem relaid_result_eq (c : Dev nD) :
    shapeCast S128x8192x16 (rowsTimesWeight (relaid m c) (tiled m c) (blockdiag m c)) shapeCasts_S131072x128_S128x8192x16
      = Cert.Spec.G (argX m c) (argTheta m c) (argW m c) := by
  funext i
  obtain ⟨b, s, o, rfl⟩ : ∃ (b : Fin 128) (s : Fin 8192) (o : Fin 16), i = ix3 b s o := ⟨i 0, i 1, i 2, eq_ix3 i⟩
  have hb := b.isLt
  have hs := s.isLt
  have ho := o.isLt
  -- the row and the lane of entry (b, s, o)
  obtain ⟨r, hr⟩ : ∃ r : Fin 131072, r.val = (b.val * 8192 + s.val) / 8 := ⟨⟨(b.val * 8192 + s.val) / 8, by omega⟩, rfl⟩
  obtain ⟨q, hq⟩ : ∃ q : Fin 128, q.val = (s.val % 8) * 16 + o.val := ⟨⟨(s.val % 8) * 16 + o.val, by omega⟩, rfl⟩
  have hrlt := r.isLt
  have hqlt := q.isLt
  refine (shapeCast_apply _ _ (ix3 b s o) (ix2 r q) ?_).trans ?_
  · rw [Shape.rowMajor_val_three, Shape.rowMajor_val_two]
    show r.val * 128 + q.val = (b.val * 8192 + s.val) * 16 + o.val
    omega
  show ∑ k : Fin 128, Ideal.cos (relaid m c (ix2 r k) + tiled m c (ix1 k)) * blockdiag m c (ix2 k q)
    = ∑ e : Fin 16, Ideal.cos (argX m c (ix3 b s e) + argTheta m c (ix1 e)) * argW m c (ix2 o e)
  refine (Finset.sum_congr rfl fun k _ => lane_eq m c r q k).trans ?_
  refine (Cert.Spec.sum_lanes (fun (g : Fin 8) (e : Fin 16) =>
    slotTerm m c r g e * ((if g.val = (⟨q.val / 16, by omega⟩ : Fin 8).val then (1 : EReal) else 0) * colWeight m c q e))).trans ?_
  refine (Cert.Spec.sum_own_slot (slotTerm m c r) (colWeight m c q) (⟨q.val / 16, by omega⟩ : Fin 8)).trans ?_
  refine Finset.sum_congr rfl fun e _ => ?_
  have ex : (ix3 (⟨r.val / 1024, by omega⟩ : Fin 128) (⟨(r.val % 1024) * 8 + q.val / 16, by omega⟩ : Fin 8192) e : S128x8192x16.Idx)
      = ix3 b s e := by
    funext a
    apply Fin.ext
    match a with
    | ⟨0, _⟩ => show r.val / 1024 = b.val; omega
    | ⟨1, _⟩ => show (r.val % 1024) * 8 + q.val / 16 = s.val; omega
    | ⟨2, _⟩ => rfl
  have ew : (ix2 (⟨q.val % 16, by omega⟩ : Fin 16) e : S16x16.Idx) = ix2 o e := by
    funext a
    apply Fin.ext
    match a with
    | ⟨0, _⟩ => show q.val % 16 = o.val; omega
    | ⟨1, _⟩ => rfl
  exact congrArg₂ (fun a b => Ideal.cos (argX m c a + argTheta m c (ix1 e)) * argW m c b) ex ew

/-- The kernel program's run: the result at the specification of the arguments, the arguments unchanged. -/
theorem run : θ_run defs (onTc (τ := τ) (main (F := Ideal))) ⟨m, fun _ => 0, ρ⟩ fun r => ∀ c : Dev nD,
      r.2.mem ((c.tc : Thread nD τ).loc main_v13) = Cert.Spec.G (argX m c) (argTheta m c) (argW m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨(((h c).2 main_v13 (Pipeline.mem_restRefs_of main_v13 (by decide) (by decide))).trans (result_eq m c)).trans (relaid_result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Whole

end
-- ==== Proof.RefSide.lean ====
/-
  The reference, read at an index, is the specification.

  The reference adds the angle of wire e to x[b, s, e], takes the cosine, and contracts the wire axis against
  the weight's second axis: entry (b, s, o) is the sum over e of cos(x[b, s, e] + angle[e]) * weight[o, e].
  The host's cosine and the kernel's are one function on the extended reals.
-/
import proofs.«131823_j65481071404431_1_alg».proof.Proof.Gen.ReferenceIdeal.Read
import proofs.«131823_j65481071404431_1_alg».proof.Proof.Spec

noncomputable section

namespace Cert.ReferenceIdeal.RefValue

open Idealize.ShloMosaic Idealize.ShloMosaic.ValueIdx Cert.ReferenceIdeal Cert.ReferenceIdeal.Read

/-- The contraction reads x at the result's batch and token and at wire k ... -/
theorem left_index (b : Fin 128) (s : Fin 8192) (o k : Fin 16) : lidx_main_v4 (ix3 b s o) k = ix3 b s k :=
  funext fun a => Fin.ext (by
    match a with
    | ⟨0, _⟩ => rfl
    | ⟨1, _⟩ => rfl
    | ⟨2, _⟩ => rfl)

/-- ... and the weight at the result's wire and at wire k. -/
theorem right_index (b : Fin 128) (s : Fin 8192) (o k : Fin 16) : ridx_main_v4 (ix3 b s o) k = ix2 o k :=
  funext fun a => Fin.ext (by
    match a with
    | ⟨0, _⟩ => rfl
    | ⟨1, _⟩ => rfl)

/-- The broadcast angle at (b, s, k) is angle k. -/
theorem angle_index (b : Fin 128) (s : Fin 8192) (k : Fin 16) : idx_main_v0 (idx_main_v1 (ix3 b s k)) = ix1 k :=
  funext fun a => Fin.ext (by
    match a with
    | ⟨0, _⟩ => rfl)

theorem reference_eq (x : S128x8192x16.Idx → EReal) (θ : S16.Idx → EReal) (w : S16x16.Idx → EReal) :
    val_main_v4 (F := Ideal) x θ w = Cert.Spec.G x θ w := by
  funext i
  obtain ⟨b, s, o, rfl⟩ : ∃ (b : Fin 128) (s : Fin 8192) (o : Fin 16), i = ix3 b s o := ⟨i 0, i 1, i 2, eq_ix3 i⟩
  rw [val_main_v4_apply]
  show _ = ∑ e : Fin 16, Ideal.cos (x (ix3 b s e) + θ (ix1 e)) * w (ix2 o e)
  refine Finset.sum_congr rfl fun k _ => ?_
  rw [left_index, right_index, val_main_v3_apply, val_main_v2_apply, val_main_v1_apply, val_main_v0_apply, angle_index]
  rfl

end Cert.ReferenceIdeal.RefValue

end
-- ==== Proof.lean ====
/-
  The claim: a per-token measurement cos(x + angle) followed by a bias-free 16 x 16 projection, computed by a
  kernel that folds 8 tokens into one 128-lane row and multiplies by a block-diagonal 128 x 128 weight,
  against the plain contraction over the 16 wires.

  Both idealized programs end with
      y[b, s, o] = sum over the 16 wires e of cos(x[b, s, e] + angle[e]) * weight[o, e]
  on the extended reals. On the kernel's side a row of 128 lanes is 8 token slots of 16 wires; the weight's entry
  for lane (g, e) and column (g', o) is (1 if g = g', else 0) * weight[o, e], so of the 128 products only the 16
  of the token's own slot are not zero. Zero times anything is zero on the extended reals and sums may be regrouped
  freely, so the equality needs no finiteness of the inputs. No operation of the kernel is replaced when it is read at the extended reals, so there is nothing to
  preserve beyond the program's own text.
-/
import proofs.«131823_j65481071404431_1_alg».proof.Defs
import proofs.«131823_j65481071404431_1_alg».proof.Proof.Gen.Kernel
import proofs.«131823_j65481071404431_1_alg».proof.Proof.Gen.Kernel.Skeleton
import proofs.«131823_j65481071404431_1_alg».proof.Proof.Gen.Kernel.Launch
import proofs.«131823_j65481071404431_1_alg».proof.Proof.Gen.Kernel.Points
import proofs.«131823_j65481071404431_1_alg».proof.Proof.Gen.Kernel.Frame
import proofs.«131823_j65481071404431_1_alg».proof.Proof.Gen.KernelIdeal
import proofs.«131823_j65481071404431_1_alg».proof.Proof.Gen.KernelIdeal.Skeleton
import proofs.«131823_j65481071404431_1_alg».proof.Proof.Gen.KernelIdeal.Launch
import proofs.«131823_j65481071404431_1_alg».proof.Proof.Gen.KernelIdeal.Points
import proofs.«131823_j65481071404431_1_alg».proof.Proof.Gen.KernelIdeal.Frame
import proofs.«131823_j65481071404431_1_alg».proof.Proof.Gen.ReferenceIdeal
import proofs.«131823_j65481071404431_1_alg».proof.Proof.Gen.Pre_finite_inputs
import proofs.«131823_j65481071404431_1_alg».proof.Proof.Gen.ReferenceIdeal.Run
import proofs.«131823_j65481071404431_1_alg».proof.Proof.Gen.ReferenceIdeal.Read
import proofs.«131823_j65481071404431_1_alg».proof.Proof.Whole
import proofs.«131823_j65481071404431_1_alg».proof.Proof.RefSide
import Idealize.ShloMosaic.Adequacy
import Idealize.ShloMosaic.Init

noncomputable section

namespace Cert.Proof

open Idealize.ShloMosaic Idealize.ShloMosaic.TcCoe Idealize.SL.Sem

/-- The word-level kernel program runs and leaves its arguments as they were. -/
theorem frame_kernel : @Cert.frame_Kernel Cert.Kernel.Gen.facts Cert.Pre_finite_inputs.Gen.facts :=
  fun m ρ _ => Cert.Kernel.Gen.frame m ρ

/-- So does the kernel program read at the extended reals. -/
theorem frame_kernelIdeal : @Cert.frame_KernelIdeal Cert.KernelIdeal.Gen.facts Cert.Pre_finite_inputs.Gen.facts :=
  fun m ρ _ => Cert.KernelIdeal.Gen.frame m ρ

/-- The reference is host operations only: its run, with the result forgotten. -/
theorem frame_referenceIdeal : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- Both runs end with the result at the same function of the arguments. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.Spec.G (Cert.KernelIdeal.Entry.argX m c) (Cert.KernelIdeal.Entry.argTheta m c) (Cert.KernelIdeal.Entry.argW m c),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.reference_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
